-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2176 : Shape := ⟨2, ![16384, 2176]⟩
abbrev S2176x64 : Shape := ⟨2, ![2176, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x2176 : S_.BroadcastsInDim S16384x2176 (![] : Fin 0 → Fin S16384x2176.rank)
  reducesTo_S16384x2176_S_d0_1 : S16384x2176.ReducesTo [0, 1] S_
  h_S_ : 0 < S_.numel
  bcast_S_S2176x64 : S_.BroadcastsInDim S2176x64 (![] : Fin 0 → Fin S2176x64.rank)
  reducesTo_S2176x64_S_d0_1 : S2176x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x2176 .f32) (main_arg1 : FVec F S2176x64 .f32) (main_arg2 : FVec F S64 .f32) (main_arg3 : FVec F S64x1 .f32) (main_arg4 : FVec F S1 .f32) : IVec S_ 1 :=
  let main_v0 : FVec F S16384x2176 .f32 := Host.absf main_arg0
  let main_cst : FVec F S_ .f32 := constant S_ .f32 0x7F800000#32
  let main_v1 : FVec F S16384x2176 .f32 := broadcastInDim S16384x2176 ![] bcast_S_S16384x2176 main_cst
  let main_v2 : IVec S16384x2176 1 := cmpf .olt main_v0 main_v1
  let main_c : IVec S_ 1 := constantI S_ 1 1#1
  let main_v3 : IVec S_ 1 := (fun x v => Host.reduce IntOp.andi x v reducesTo_S16384x2176_S_d0_1 h_S_) main_v2 main_c
  let main_v4 : FVec F S2176x64 .f32 := Host.absf main_arg1
  let main_cst_0 : FVec F S_ .f32 := constant S_ .f32 0x7F800000#32
  let main_v5 : FVec F S2176x64 .f32 := broadcastInDim S2176x64 ![] bcast_S_S2176x64 main_cst_0
  let main_v6 : IVec S2176x64 1 := cmpf .olt main_v4 main_v5
  let main_c_1 : IVec S_ 1 := constantI S_ 1 1#1
  let main_v7 : IVec S_ 1 := (fun x v => Host.reduce IntOp.andi x v reducesTo_S2176x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S16384x2176 : Shape := ⟨2, ![16384, 2176]⟩
abbrev S2176x64 : Shape := ⟨2, ![2176, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S16x1x1024 : Shape := ⟨3, ![16, 1, 1024]⟩
abbrev S1024x2176 : Shape := ⟨2, ![1024, 2176]⟩
abbrev S1x1x1024 : Shape := ⟨3, ![1, 1, 1024]⟩
abbrev S1x2176 : Shape := ⟨2, ![1, 2176]⟩
abbrev S1x1024 : Shape := ⟨2, ![1, 1024]⟩
abbrev S16384x1 : Shape := ⟨2, ![16384, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2176, .f32⟩
  | .hbm, ⟨1, _⟩ => ⟨S2176x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x64, .f32⟩
  | .hbm, ⟨6, _⟩ => ⟨S1x1, .f32⟩
  | .hbm, ⟨7, _⟩ => ⟨S16x1x1024, .f32⟩
  | .hbm, ⟨8, _⟩ => ⟨S16384x1, .f32⟩
  | .local _ .vmem, ⟨0, _⟩ => ⟨S1024x2176, .f32⟩
  | .local _ .vmem, ⟨1, _⟩ => ⟨S1024x2176, .f32⟩
  | .local _ .vmem, ⟨2, _⟩ => ⟨S2176x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S1x1x1024, .f32⟩
  | .local _ .vmem, ⟨7, _⟩ => ⟨S1x1x1024, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S2176x64_S2176x64_0_0 : ∀ a, (![0, 0] : Fin 2 → Nat) a + S2176x64.size a ≤ S2176x64.size a
  h_S2176x64 : 0 < S2176x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x2176_S1024x2176_0_0 : ∀ a, (![0, 0] : Fin 2 → Nat) a + S1024x2176.size a ≤ S1024x2176.size a
  h_S1024x2176 : 0 < S1024x2176.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384x1 : S16x1x1024.ShapeCasts S16384x1
  dot_S64x1_S2176x64_S1x2176_0_1_1_0_n_n_wf : DotDims.WF S64x1 S2176x64 S1x2176 [0] [1] [1] [0] [] []
  dot_S1x64_S64x1_S1x1_1_0_0_1_n_n_wf : DotDims.WF S1x64 S64x1 S1x1 [1] [0] [0] [1] [] []
  dot_S1x2176_S1024x2176_S1x1024_1_1_0_0_n_n_wf : DotDims.WF S1x2176 S1024x2176 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2176.size a ≤ S16384x2176.size a
  hwx0_0 : ∀ i : grid0.Coords, EltTy.bits .f32 = 32 ∨ (Rect.block (s := S16384x2176) S1024x2176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2176x64.size a ≤ S2176x64.size a
  hwx0_1 : ∀ i : grid0.Coords, EltTy.bits .f32 = 32 ∨ (Rect.block (s := S2176x64) S2176x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .f32 = 32 ∨ (Rect.block (s := S16x1x1024) S1x1x1024.size (cc0_transform_5 i) (hinb0_5 i)).WholeWords (EltTy.packing .f32)

variable [Facts₀]

def dot_S64x1_S2176x64_S1x2176_0_1_1_0_n_n : DotDims S64x1 S2176x64 S1x2176 where
  lhsContracting := [0]
  rhsContracting := [1]
  lhsNonContracting := [1]
  rhsNonContracting := [0]
  lhsBatch := []
  rhsBatch := []
  wf := dot_S64x1_S2176x64_S1x2176_0_1_1_0_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S1x2176_S1024x2176_S1x1024_1_1_0_0_n_n : DotDims S1x2176 S1024x2176 S1x1024 where
  lhsContracting := [1]
  rhsContracting := [1]
  lhsNonContracting := [0]
  rhsNonContracting := [0]
  lhsBatch := []
  rhsBatch := []
  wf := dot_S1x2176_S1024x2176_S1x1024_1_1_0_0_n_n_wf

abbrev win0_0 : Pipeline.Window sig grid0 :=
  Pipeline.Window.ofSpec (Memref.whole main_arg0) S1024x2176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2176x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2176 : Shape := ⟨2, ![16384, 2176]⟩
abbrev S2176x64 : Shape := ⟨2, ![2176, 64]⟩
abbrev S64 : Shape := ⟨1, ![64]⟩
abbrev S64x1 : Shape := ⟨2, ![64, 1]⟩
abbrev S1 : Shape := ⟨1, ![1]⟩
abbrev S16384x64 : Shape := ⟨2, ![16384, 64]⟩
abbrev S1x64 : Shape := ⟨2, ![1, 64]⟩
abbrev S16384x1 : Shape := ⟨2, ![16384, 1]⟩
abbrev S1x1 : Shape := ⟨2, ![1, 1]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S2176x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S16384x1, .f32⟩
  | .hbm, ⟨10, _⟩ => ⟨S1x1, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x2176_S2176x64_S16384x64_1_0_0_1_n_n_wf : DotDims.WF S16384x2176 S2176x64 S16384x64 [1] [0] [0] [1] [] []
  dot_S16384x64_S64x1_S16384x1_1_0_0_1_n_n_wf : DotDims.WF S16384x64 S64x1 S16384x1 [1] [0] [0] [1] [] []

variable [Facts₀]

def dot_S16384x2176_S2176x64_S16384x64_1_0_0_1_n_n : DotDims S16384x2176 S2176x64 S16384x64 where
  lhsContracting := [1]
  rhsContracting := [0]
  lhsNonContracting := [0]
  rhsNonContracting := [1]
  lhsBatch := []
  rhsBatch := []
  wf := dot_S16384x2176_S2176x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Collapse.lean ====
/-
  Two affine layers with nothing between them are one affine map.

  With `x` a row of the batch, `w` the hidden weights, `b` the hidden bias, `o` the output weights and `c` the
  output bias, the two-layer form is   Σ_j (Σ_d x_d · w_dj + b_j) · o_j + c   and the collapsed form is
  Σ_d (Σ_j o_j · w_dj) · x_d + (Σ_j b_j · o_j + c).   Over the reals they are equal by distributing the
  product over the inner sum and exchanging the two sums.  On the extended reals distributivity fails at the
  infinities, so the law is stated for entries that are real numbers.

  The result array is the logistic function of that number, row by row; it is written here once, as a function of
  the five argument arrays, in the collapsed form.
-/
import Idealize.ShloMosaic.PureOps.Ideal
import Idealize.ShloMosaic.Lib.ValueIdx

noncomputable section

open scoped BigOperators

namespace Cert.Collapse

open Idealize.ShloMosaic Idealize.ShloMosaic.ValueIdx

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: distribute `· o_j` over the inner sum, exchange the sums, regroup. -/
theorem collapse_real {D H : Type} [Fintype D] [Fintype H] (x : D → ℝ) (w : D → H → ℝ) (b o : H → ℝ) (c : ℝ) :
    (∑ j, ((∑ d, x d * w d j) + b j) * o j) + c = (∑ d, (∑ j, o j * w d j) * x d) + ((∑ j, b j * o j) + c) := by
  simp only [add_mul, Finset.sum_add_distrib, Finset.sum_mul]
  rw [Finset.sum_comm, add_assoc]
  congr 1
  exact Finset.sum_congr rfl fun d _ => Finset.sum_congr rfl fun j _ => by ring

/-- The same law on the extended reals, for entries that are real numbers. -/
theorem collapse {D H : Type} [Fintype D] [Fintype H] (x : D → ℝ) (w : D → H → ℝ) (b o : H → ℝ) (c : ℝ) :
    (∑ j, ((∑ d, (x d : EReal) * (w d j : EReal)) + (b j : EReal)) * (o j : EReal)) + (c : EReal)
      = (∑ d, (∑ j, (o j : EReal) * (w d j : EReal)) * (x d : EReal)) + ((∑ j, (b j : EReal) * (o j : EReal)) + (c : EReal)) := by
  simp only [← EReal.coe_mul, ← coe_sum, ← EReal.coe_add]
  exact congrArg _ (collapse_real x w b o c)

/-! ## The result as one function of the argument arrays -/

abbrev SX : Shape := ⟨2, ![16384, 2176]⟩
abbrev SWh : Shape := ⟨2, ![2176, 64]⟩
abbrev Sbh : Shape := ⟨1, ![64]⟩
abbrev SWo : Shape := ⟨2, ![64, 1]⟩
abbrev Sbo : Shape := ⟨1, ![1]⟩
abbrev SOut : Shape := ⟨2, ![16384, 1]⟩

/-- The number the logistic function is applied to at batch row `r`, in the collapsed form: the row against the
    folded weight column `W_h · W_o`, plus the folded bias `b_h · W_o + b_o`. -/
def preact (X : SX.Idx → EReal) (Wh : SWh.Idx → EReal) (bh : Sbh.Idx → EReal) (Wo : SWo.Idx → EReal) (bo : Sbo.Idx → EReal)
    (r : Fin 16384) : EReal :=
  (∑ d : Fin 2176, (∑ j : Fin 64, Wo (ix2 j 0) * Wh (ix2 d j)) * X (ix2 r d))
    + ((∑ j : Fin 64, bh (ix1 j) * Wo (ix2 j 0)) + bo (ix1 0))

/-- The result array: entry `(r, 0)` is the logistic function of row `r`'s pre-activation. -/
def prob (X : SX.Idx → EReal) (Wh : SWh.Idx → EReal) (bh : Sbh.Idx → EReal) (Wo : SWo.Idx → EReal) (bo : Sbo.Idx → EReal) :
    SOut.Idx → EReal :=
  fun i => Ideal.logistic (preact X Wh bh Wo bo (i 0))

/-- Every entry of an array is a real number. -/
def IsReal {ι : Type} (f : ι → EReal) : Prop := ∀ i, ∃ v : ℝ, f i = (v : EReal)

/-- The pre-activation in the two-layer form, when every entry of every argument is a real number. -/
theorem preact_two_layer (X : SX.Idx → EReal) (Wh : SWh.Idx → EReal) (bh : Sbh.Idx → EReal) (Wo : SWo.Idx → EReal)
    (bo : Sbo.Idx → EReal) (hX : IsReal X) (hWh : IsReal Wh) (hbh : IsReal bh) (hWo : IsReal Wo) (hbo : IsReal bo)
    (r : Fin 16384) :
    (∑ j : Fin 64, ((∑ d : Fin 2176, X (ix2 r d) * Wh (ix2 d j)) + bh (ix1 j)) * Wo (ix2 j 0)) + bo (ix1 0)
      = preact X Wh bh Wo bo r := by
  choose x hx using hX
  choose w hw using hWh
  choose b hb using hbh
  choose o ho using hWo
  choose c hc using hbo
  unfold preact
  simp only [hx, hw, hb, ho, hc]
  exact collapse (fun d => x (ix2 r d)) (fun d j => w (ix2 d j)) (fun j => b (ix1 j)) (fun j => o (ix2 j 0)) (c (ix1 0))

end Cert.Collapse

end
-- ==== Proof.RealEntries.lean ====
/-
  The precondition says every entry of every argument is a real number.

  The precondition is the conjunction, over the five arguments, of "every entry has absolute value below +∞".
  On the extended reals  max x (−x) < +∞  fails exactly at the two infinities, so each conjunct says that every
  entry of its argument is a real number.
-/
import proofs.«156972_g63591285784749_cont_sun_c4_171_12_alg».proof.Pre_finite_inputs
import proofs.«156972_g63591285784749_cont_sun_c4_171_12_alg».proof.Proof.Collapse
import Idealize.ShloMosaic.Lib.ReduceAll
import Idealize.ShloMosaic.Lib.Pipeline.Value
import Idealize.ShloMosaic.Lib.ValueIdx

noncomputable section

namespace Cert.Pre_finite_inputs.Decode

open Cert.Pre_finite_inputs Idealize.ShloMosaic Idealize.ShloMosaic.ValueIdx Cert.Collapse

variable [Facts]
open Facts

/-- The shape with no axes has one index. -/
instance : Subsingleton S_.Idx := ⟨fun a b => funext fun d => d.elim0⟩

/-- The word `0x7F800000` is +∞. -/
theorem inf_word : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ v : ℝ, x = (v : EReal) := by
  rw [inf_word] at h
  induction x using EReal.rec with
  | bot => simp [Ideal.cmp] at h
  | coe v => exact ⟨v, rfl⟩
  | top => simp [Ideal.cmp] at h

/-- One conjunct of the precondition: the all-reduction of `|a| < +∞` being one says every entry of `a` is real. -/
theorem isReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) : IsReal a := by
  intro i
  have h := Host.reduce_andi_all _ _ hr hu ix0 e i
  have hb' : broadcastInDim s ![] hb (constant (F := Ideal) S_ .f32 0x7F800000#32) i = Ideal.ofBits .f32 0x7F800000#32 :=
    broadcastInDim_apply _ hb _ i ix0 (fun a => a.elim0)
  refine real_of_abs_lt (a i) ?_
  rw [← hb']
  exact h

/-- The whole precondition: every entry of each of the five arguments is a real number. -/
theorem reals_of_pre (a0 : FVec Ideal S16384x2176 .f32) (a1 : FVec Ideal S2176x64 .f32) (a2 : FVec Ideal S64 .f32)
    (a3 : FVec Ideal S64x1 .f32) (a4 : FVec Ideal S1 .f32) (h : fn (F := Ideal) a0 a1 a2 a3 a4 = fun _ => 1#1) :
    IsReal a0 ∧ IsReal a1 ∧ IsReal a2 ∧ IsReal a3 ∧ IsReal a4 := by
  have h0 := congrFun h ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨isReal_of_all a0 _ _ _ e0, isReal_of_all a1 _ _ _ e1, isReal_of_all a2 _ _ _ e2, isReal_of_all a3 _ _ _ e3,
    isReal_of_all a4 _ _ _ e4⟩

end Cert.Pre_finite_inputs.Decode

end
-- ==== Proof.RefValue.lean ====
/-
  The reference's result, index by index.

  The reference computes the hidden layer  h_rj = Σ_d x_rd · w_dj + b_j,  the output layer  y_r = Σ_j h_rj · o_j + c,
  and then  1 / (1 + exp (−y_r)).  Reading its operations one at a time gives exactly the two-layer form of the
  pre-activation, and  1 / (1 + e^(−y))  is the logistic function by definition; when every entry of every argument
  is a real number the two-layer form is the collapsed one, so the reference's result is `Collapse.prob`.
-/
import proofs.«156972_g63591285784749_cont_sun_c4_171_12_alg».proof.Proof.Gen.ReferenceIdeal.Read
import proofs.«156972_g63591285784749_cont_sun_c4_171_12_alg».proof.Proof.Collapse

noncomputable section

open scoped BigOperators

namespace Cert.ReferenceIdeal.RefValue

open Cert.ReferenceIdeal Cert.ReferenceIdeal.Gen Cert.ReferenceIdeal.Read Idealize.ShloMosaic Idealize.ShloMosaic.ValueIdx Cert.Collapse

/-- The word `0x3F800000` is the number one. -/
theorem one_word : Ideal.ofBits .f32 0x3F800000#32 = 1 := by
  simp [Ideal.ofBits, Ideal.ieee, -EReal.coe_mul]; norm_num

/-- The reference's last stage is `prob` of the arguments, when every entry of every argument is a real number. -/
theorem ref_eq (X : FVec Ideal S16384x2176 .f32) (Wh : FVec Ideal S2176x64 .f32) (bh : FVec Ideal S64 .f32)
    (Wo : FVec Ideal S64x1 .f32) (bo : FVec Ideal S1 .f32)
    (hX : IsReal X) (hWh : IsReal Wh) (hbh : IsReal bh) (hWo : IsReal Wo) (hbo : IsReal bo) :
    val_main_v13 (F := Ideal) X Wh bh Wo bo = prob X Wh bh Wo bo := by
  funext i
  obtain ⟨r, z, rfl⟩ : ∃ (r : Fin 16384) (z : Fin 1), i = ix2 r z := ⟨i 0, i 1, eq_ix2 i⟩
  obtain rfl : z = 0 := Subsingleton.elim _ _
  -- the operations, outermost first
  rw [val_main_v13_apply, val_main_v12_apply, val_main_cst_0_apply, val_main_v11_apply, val_main_v10_apply,
    val_main_cst_apply, val_main_v9_apply, val_main_v8_apply, val_main_v7_apply, val_main_v6_apply, val_main_v5_apply,
    val_main_v4_apply]
  simp only [val_main_v3_apply, val_main_v0_apply, val_main_v2_apply, val_main_v1_apply]
  -- which entries the two products and the two bias broadcasts read
  have e1 : ∀ (k : Fin 64) (k' : Fin 2176), lidx_main_v0 (lidx_main_v4 (ix2 r 0) k) k' = ix2 r k' := fun k k' =>
    funext fun a => by match a with | ⟨0, _⟩ => rfl | ⟨1, _⟩ => rfl
  have e2 : ∀ (k : Fin 64) (k' : Fin 2176), ridx_main_v0 (lidx_main_v4 (ix2 r 0) k) k' = ix2 k' k := fun k k' =>
    funext fun a => by match a with | ⟨0, _⟩ => rfl | ⟨1, _⟩ => rfl
  have e3 : ∀ k : Fin 64, idx_main_v1 (idx_main_v2 (lidx_main_v4 (ix2 r 0) k)) = ix1 k := fun k =>
    funext fun a => by match a with | ⟨0, _⟩ => rfl
  have e4 : ∀ k : Fin 64, ridx_main_v4 (ix2 r 0) k = ix2 k 0 := fun k =>
    funext fun a => by match a with | ⟨0, _⟩ => rfl | ⟨1, _⟩ => rfl
  have e5 : idx_main_v5 (idx_main_v6 (ix2 r 0)) = ix1 0 :=
    funext fun a => by match a with | ⟨0, _⟩ => rfl
  simp only [e1, e2, e3, e4, e5]
  -- the two-layer pre-activation is the collapsed one; 1 / (1 + e^(−y)) is the logistic function
  have hz := preact_two_layer X Wh bh Wo bo hX hWh hbh hWo hbo r
  show Ideal.div (Ideal.ofBits .f32 0x3F800000#32) (Ideal.ofBits .f32 0x3F800000#32 + Ideal.exp (-(_ + _))) = Ideal.logistic _
  rw [one_word]
  exact congrArg Ideal.logistic hz

end Cert.ReferenceIdeal.RefValue

end
-- ==== Proof.KernelPoint.lean ====
/-
  The kernel body's stored value at one lane.

  The body folds the two weight matrices into one row  wt_d = Σ_j o_j · w_dj  (a product of the output weights,
  contracted on their row axis, with the hidden weights contracted on their column axis), folds the biases into
  one number  Σ_j b_j · o_j + c,  contracts the folded row with the block of batch rows on the feature axis, adds
  the folded bias along the lanes and applies the logistic function.  Read at lane `q` of the stored
  `[1, 1, 1024]` value this is the logistic function of
      Σ_d (Σ_j o_j · w_dj) · x_qd + (Σ_j b_j · o_j + c).
  Each of the three matrix products starts from a zero accumulator, so at the ideal values it is the plain sum
  over its one contracted axis; what remains is to say which coordinate of each operand the contraction position
  and the output index select.
-/
import proofs.«156972_g63591285784749_cont_sun_c4_171_12_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Point

open Cert.KernelIdeal Cert.KernelIdeal.Gen Idealize.ShloMosaic Idealize.ShloMosaic.ValueIdx

/-! ## The folded weight row: output weights (contracted on rows) against hidden weights (contracted on columns) -/

theorem fold_lhs_0 (i : S1x2176.Idx) (q : dot_S64x1_S2176x64_S1x2176_0_1_1_0_n_n.contr.Idx) :
    (dot_S64x1_S2176x64_S1x2176_0_1_1_0_n_n.lhsIdx i q 0).val = (q ⟨0, by decide⟩).val :=
  dot_S64x1_S2176x64_S1x2176_0_1_1_0_n_n.lhsIdx_val_of_single rfl i q
theorem fold_lhs_1 (i : S1x2176.Idx) (q : dot_S64x1_S2176x64_S1x2176_0_1_1_0_n_n.contr.Idx) :
    (dot_S64x1_S2176x64_S1x2176_0_1_1_0_n_n.lhsIdx i q 1).val = (i 0).val := by
  unfold DotDims.lhsIdx
  rw [dif_neg (show ¬(1 : Fin S64x1.rank) ∈ dot_S64x1_S2176x64_S1x2176_0_1_1_0_n_n.lhsBatch by decide), dif_pos (show (1 : Fin S64x1.rank) ∈ dot_S64x1_S2176x64_S1x2176_0_1_1_0_n_n.lhsNonContracting by decide)]
  rfl
theorem fold_rhs_0 (i : S1x2176.Idx) (q : dot_S64x1_S2176x64_S1x2176_0_1_1_0_n_n.contr.Idx) :
    (dot_S64x1_S2176x64_S1x2176_0_1_1_0_n_n.rhsIdx i q 0).val = (i 1).val := by
  unfold DotDims.rhsIdx
  rw [dif_neg (show ¬(0 : Fin S2176x64.rank) ∈ dot_S64x1_S2176x64_S1x2176_0_1_1_0_n_n.rhsBatch by decide), dif_pos (show (0 : Fin S2176x64.rank) ∈ dot_S64x1_S2176x64_S1x2176_0_1_1_0_n_n.rhsNonContracting by decide)]
  rfl
theorem fold_rhs_1 (i : S1x2176.Idx) (q : dot_S64x1_S2176x64_S1x2176_0_1_1_0_n_n.contr.Idx) :
    (dot_S64x1_S2176x64_S1x2176_0_1_1_0_n_n.rhsIdx i q 1).val = (q ⟨0, by decide⟩).val :=
  dot_S64x1_S2176x64_S1x2176_0_1_1_0_n_n.rhsIdx_val_of_single rfl i q

/-- Entry `d` of the folded row: the sum over the hidden units of output weight times hidden weight. -/
theorem fold_apply (o : FVec Ideal S64x1 .f32) (w : FVec Ideal S2176x64 .f32) (d : Fin 2176) :
    matmul dot_S64x1_S2176x64_S1x2176_0_1_1_0_n_n none o w (constant S1x2176 .f32 0x00000000#32) (ix2 0 d)
      = ∑ j : Fin 64, o (ix2 j 0) * w (ix2 d j) := by
  show FloatOps.matmul _ _ _ _ _ _ = _
  rw [Ideal.matmul_constant_zero_apply, ← Equiv.sum_comp (contrEquiv1 dot_S64x1_S2176x64_S1x2176_0_1_1_0_n_n 64 rfl rfl).symm]
  refine Finset.sum_congr rfl fun k _ => ?_
  have hk := contrEquiv1_symm_val dot_S64x1_S2176x64_S1x2176_0_1_1_0_n_n 64 rfl rfl k
  have el : dot_S64x1_S2176x64_S1x2176_0_1_1_0_n_n.lhsIdx (ix2 0 d) ((contrEquiv1 dot_S64x1_S2176x64_S1x2176_0_1_1_0_n_n 64 rfl rfl).symm k) = ix2 k 0 := funext fun a => Fin.ext (by
    match a with
    | ⟨0, _⟩ => exact (fold_lhs_0 _ _).trans hk
    | ⟨1, _⟩ => exact fold_lhs_1 _ _)
  have er : dot_S64x1_S2176x64_S1x2176_0_1_1_0_n_n.rhsIdx (ix2 0 d) ((contrEquiv1 dot_S64x1_S2176x64_S1x2176_0_1_1_0_n_n 64 rfl rfl).symm k) = ix2 d k := funext fun a => Fin.ext (by
    match a with
    | ⟨0, _⟩ => exact fold_rhs_0 _ _
    | ⟨1, _⟩ => exact (fold_rhs_1 _ _).trans hk)
  rw [el, er]

/-! ## The folded bias: hidden bias row against the output weights -/

theorem bias_lhs_0 (i : S1x1.Idx) (q : dot_S1x64_S64x1_S1x1_1_0_0_1_n_n.contr.Idx) :
    (dot_S1x64_S64x1_S1x1_1_0_0_1_n_n.lhsIdx i q 0).val = (i 0).val := by
  unfold DotDims.lhsIdx
  rw [dif_neg (show ¬(0 : Fin S1x64.rank) ∈ dot_S1x64_S64x1_S1x1_1_0_0_1_n_n.lhsBatch by decide), dif_pos (show (0 : Fin S1x64.rank) ∈ dot_S1x64_S64x1_S1x1_1_0_0_1_n_n.lhsNonContracting by decide)]
  rfl
theorem bias_lhs_1 (i : S1x1.Idx) (q : dot_S1x64_S64x1_S1x1_1_0_0_1_n_n.contr.Idx) :
    (dot_S1x64_S64x1_S1x1_1_0_0_1_n_n.lhsIdx i q 1).val = (q ⟨0, by decide⟩).val :=
  dot_S1x64_S64x1_S1x1_1_0_0_1_n_n.lhsIdx_val_of_single rfl i q
theorem bias_rhs_0 (i : S1x1.Idx) (q : dot_S1x64_S64x1_S1x1_1_0_0_1_n_n.contr.Idx) :
    (dot_S1x64_S64x1_S1x1_1_0_0_1_n_n.rhsIdx i q 0).val = (q ⟨0, by decide⟩).val :=
  dot_S1x64_S64x1_S1x1_1_0_0_1_n_n.rhsIdx_val_of_single rfl i q
theorem bias_rhs_1 (i : S1x1.Idx) (q : dot_S1x64_S64x1_S1x1_1_0_0_1_n_n.contr.Idx) :
    (dot_S1x64_S64x1_S1x1_1_0_0_1_n_n.rhsIdx i q 1).val = (i 1).val := by
  unfold DotDims.rhsIdx
  rw [dif_neg (show ¬(1 : Fin S64x1.rank) ∈ dot_S1x64_S64x1_S1x1_1_0_0_1_n_n.rhsBatch by decide), dif_pos (show (1 : Fin S64x1.rank) ∈ dot_S1x64_S64x1_S1x1_1_0_0_1_n_n.rhsNonContracting by decide)]
  rfl

/-- The folded bias before the output bias is added: the sum over the hidden units of hidden bias times output weight. -/
theorem bias_apply (b : FVec Ideal S1x64 .f32) (o : FVec Ideal S64x1 .f32) :
    matmul dot_S1x64_S64x1_S1x1_1_0_0_1_n_n none b o (constant S1x1 .f32 0x00000000#32) (ix2 0 0)
      = ∑ j : Fin 64, b (ix2 0 j) * o (ix2 j 0) := by
  show FloatOps.matmul _ _ _ _ _ _ = _
  rw [Ideal.matmul_constant_zero_apply, ← Equiv.sum_comp (contrEquiv1 dot_S1x64_S64x1_S1x1_1_0_0_1_n_n 64 rfl rfl).symm]
  refine Finset.sum_congr rfl fun k _ => ?_
  have hk := contrEquiv1_symm_val dot_S1x64_S64x1_S1x1_1_0_0_1_n_n 64 rfl rfl k
  have el : dot_S1x64_S64x1_S1x1_1_0_0_1_n_n.lhsIdx (ix2 0 0) ((contrEquiv1 dot_S1x64_S64x1_S1x1_1_0_0_1_n_n 64 rfl rfl).symm k) = ix2 0 k := funext fun a => Fin.ext (by
    match a with
    | ⟨0, _⟩ => exact bias_lhs_0 _ _
    | ⟨1, _⟩ => exact (bias_lhs_1 _ _).trans hk)
  have er : dot_S1x64_S64x1_S1x1_1_0_0_1_n_n.rhsIdx (ix2 0 0) ((contrEquiv1 dot_S1x64_S64x1_S1x1_1_0_0_1_n_n 64 rfl rfl).symm k) = ix2 k 0 := funext fun a => Fin.ext (by
    match a with
    | ⟨0, _⟩ => exact (bias_rhs_0 _ _).trans hk
    | ⟨1, _⟩ => exact bias_rhs_1 _ _)
  rw [el, er]

/-! ## The folded row against the block of batch rows, both contracted on the feature axis -/

theorem rows_lhs_0 (i : S1x1024.Idx) (q : dot_S1x2176_S1024x2176_S1x1024_1_1_0_0_n_n.contr.Idx) :
    (dot_S1x2176_S1024x2176_S1x1024_1_1_0_0_n_n.lhsIdx i q 0).val = (i 0).val := by
  unfold DotDims.lhsIdx
  rw [dif_neg (show ¬(0 : Fin S1x2176.rank) ∈ dot_S1x2176_S1024x2176_S1x1024_1_1_0_0_n_n.lhsBatch by decide), dif_pos (show (0 : Fin S1x2176.rank) ∈ dot_S1x2176_S1024x2176_S1x1024_1_1_0_0_n_n.lhsNonContracting by decide)]
  rfl
theorem rows_lhs_1 (i : S1x1024.Idx) (q : dot_S1x2176_S1024x2176_S1x1024_1_1_0_0_n_n.contr.Idx) :
    (dot_S1x2176_S1024x2176_S1x1024_1_1_0_0_n_n.lhsIdx i q 1).val = (q ⟨0, by decide⟩).val :=
  dot_S1x2176_S1024x2176_S1x1024_1_1_0_0_n_n.lhsIdx_val_of_single rfl i q
theorem rows_rhs_0 (i : S1x1024.Idx) (q : dot_S1x2176_S1024x2176_S1x1024_1_1_0_0_n_n.contr.Idx) :
    (dot_S1x2176_S1024x2176_S1x1024_1_1_0_0_n_n.rhsIdx i q 0).val = (i 1).val := by
  unfold DotDims.rhsIdx
  rw [dif_neg (show ¬(0 : Fin S1024x2176.rank) ∈ dot_S1x2176_S1024x2176_S1x1024_1_1_0_0_n_n.rhsBatch by decide), dif_pos (show (0 : Fin S1024x2176.rank) ∈ dot_S1x2176_S1024x2176_S1x1024_1_1_0_0_n_n.rhsNonContracting by decide)]
  rfl
theorem rows_rhs_1 (i : S1x1024.Idx) (q : dot_S1x2176_S1024x2176_S1x1024_1_1_0_0_n_n.contr.Idx) :
    (dot_S1x2176_S1024x2176_S1x1024_1_1_0_0_n_n.rhsIdx i q 1).val = (q ⟨0, by decide⟩).val :=
  dot_S1x2176_S1024x2176_S1x1024_1_1_0_0_n_n.rhsIdx_val_of_single rfl i q

/-- Lane `q` of the product: the folded row against batch row `q` of the block, summed over the features. -/
theorem rows_apply (wt : FVec Ideal S1x2176 .f32) (x : FVec Ideal S1024x2176 .f32) (q : Fin 1024) :
    matmul dot_S1x2176_S1024x2176_S1x1024_1_1_0_0_n_n none wt x (constant S1x1024 .f32 0x00000000#32) (ix2 0 q)
      = ∑ d : Fin 2176, wt (ix2 0 d) * x (ix2 q d) := by
  show FloatOps.matmul _ _ _ _ _ _ = _
  rw [Ideal.matmul_constant_zero_apply, ← Equiv.sum_comp (contrEquiv1 dot_S1x2176_S1024x2176_S1x1024_1_1_0_0_n_n 2176 rfl rfl).symm]
  refine Finset.sum_congr rfl fun k _ => ?_
  have hk := contrEquiv1_symm_val dot_S1x2176_S1024x2176_S1x1024_1_1_0_0_n_n 2176 rfl rfl k
  have el : dot_S1x2176_S1024x2176_S1x1024_1_1_0_0_n_n.lhsIdx (ix2 0 q) ((contrEquiv1 dot_S1x2176_S1024x2176_S1x1024_1_1_0_0_n_n 2176 rfl rfl).symm k) = ix2 0 k := funext fun a => Fin.ext (by
    match a with
    | ⟨0, _⟩ => exact rows_lhs_0 _ _
    | ⟨1, _⟩ => exact (rows_lhs_1 _ _).trans hk)
  have er : dot_S1x2176_S1024x2176_S1x1024_1_1_0_0_n_n.rhsIdx (ix2 0 q) ((contrEquiv1 dot_S1x2176_S1024x2176_S1x1024_1_1_0_0_n_n 2176 rfl rfl).symm k) = ix2 q k := funext fun a => Fin.ext (by
    match a with
    | ⟨0, _⟩ => exact rows_rhs_0 _ _
    | ⟨1, _⟩ => exact (rows_rhs_1 _ _).trans hk)
  rw [el, er]

/-! ## The stored value at a lane -/

/-- The folded bias, a `[1, 1]` value, spread along the 1024 lanes: every lane reads its one entry. -/
theorem spread_apply (v : FVec Ideal S1x1 .f32) (q : Fin 1024) :
    broadcastTo S1x1024 v broadcasts_S1x1_S1x1024 (ix2 0 q) = v (ix2 0 0) :=
  broadcastTo_apply v broadcasts_S1x1_S1x1024 (ix2 0 q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The body's stored value at lane `q`, as a function of the six loaded values (the output weights are loaded
    twice: `o` feeds the folded row, `o'` the folded bias). -/
theorem pay_apply (o : Vec Ideal S64x1 .f32) (w : Vec Ideal S2176x64 .f32) (b : Vec Ideal S1x64 .f32) (o' : Vec Ideal S64x1 .f32)
    (x : Vec Ideal S1024x2176 .f32) (c : Vec Ideal S1x1 .f32) (q : Fin 1024) :
    k0_pay1 (F := Ideal) o w b o' x c (ix3 0 0 q)
      = Ideal.logistic ((∑ d : Fin 2176, (∑ j : Fin 64, o (ix2 j 0) * w (ix2 d j)) * x (ix2 q d))
          + ((∑ j : Fin 64, b (ix2 0 j) * o' (ix2 j 0)) + c (ix2 0 0))) := by
  unfold k0_pay1
  refine (shapeCast_addUnit_apply ![1, 1024] _ shapeCasts_S1x1024_S1x1x1024 (ix3 0 0 q)).trans ?_
  have e : (fun a : Fin 2 => (ix3 (0 : Fin 1) (0 : Fin 1) q : (⟨3, ![1, 1, 1024]⟩ : Shape).Idx) a.succ) = ix2 0 q :=
    funext fun a => by match a with | ⟨0, _⟩ => rfl | ⟨1, _⟩ => rfl
  rw [e]
  show Ideal.logistic (_ + _) = _
  rw [rows_apply, spread_apply]
  show Ideal.logistic (_ + (_ + _)) = _
  rw [bias_apply, shapeCast_self, shapeCast_self]
  simp only [fold_apply]

end Cert.KernelIdeal.Point

end
-- ==== Proof.KernelArray.lean ====
/-
  From the kernel's blocks to its result array.

  The grid has sixteen points.  Point `t` reads batch rows  1024·t … 1024·t + 1023  (the other four operands whole,
  the two biases after a reshape to a row and to a `[1, 1]` array) and writes row `t` of a `[16, 1, 1024]` array,
  lane `q` holding the logistic function of batch row  1024·t + q's  pre-activation.  The sixteen rows tile that
  array, so after the run its entry `(t, 0, q)` is `prob` at batch row  1024·t + q;  the reshape to `[16384, 1]`
  after the region reads entry `(r, 0)` at  (r / 1024, 0, r % 1024),  which is batch row `r` again.
-/
import proofs.«156972_g63591285784749_cont_sun_c4_171_12_alg».proof.Proof.Gen.KernelIdeal.Frame
import proofs.«156972_g63591285784749_cont_sun_c4_171_12_alg».proof.Proof.KernelPoint
import proofs.«156972_g63591285784749_cont_sun_c4_171_12_alg».proof.Proof.Collapse
import Idealize.ShloMosaic.Lib.StableHlo.Run
import Idealize.ShloMosaic.Lib.Pipeline.Value

set_option maxRecDepth 16384

noncomputable section

open scoped BigOperators

namespace Cert.KernelIdeal.Arr

open Cert.KernelIdeal Cert.KernelIdeal.Gen Cert.KernelIdeal.Point Idealize.ShloMosaic Idealize.ShloMosaic.TcCoe
open Idealize.ShloMosaic.ValueIdx Idealize.SL.Sem Cert.Collapse Idealize.ShloMosaic.StableHlo
open Idealize.ShloMosaic.Pipeline (Dat)

variable (m : (ℓ : Loc nD τ sig) → Buf (Elt Ideal) ℓ) (ρ : Dev nD → PrngReg)

/-! ## The argument arrays and the result in blocked layout -/

abbrev argX (c : Dev nD) : SX.Idx → EReal := m ((c : Thread nD τ).loc main_arg0)
abbrev argWh (c : Dev nD) : SWh.Idx → EReal := m ((c : Thread nD τ).loc main_arg1)
abbrev argBh (c : Dev nD) : Sbh.Idx → EReal := m ((c : Thread nD τ).loc main_arg2)
abbrev argWo (c : Dev nD) : SWo.Idx → EReal := m ((c : Thread nD τ).loc main_arg3)
abbrev argBo (c : Dev nD) : Sbo.Idx → EReal := m ((c : Thread nD τ).loc main_arg4)

/-- The batch row that entry `(t, 0, q)` of the blocked result belongs to: 1024·t + q. -/
def rowOf (i : S16x1x1024.Idx) : Fin 16384 := ⟨(i 0).val * 1024 + (i 2).val, by
  have h0 : (i 0).val < 16 := (i 0).isLt
  have h2 : (i 2).val < 1024 := (i 2).isLt
  omega⟩

/-- The result in blocked layout: entry `(t, 0, q)` is `prob` at batch row 1024·t + q. -/
def lanes (c : Dev nD) : S16x1x1024.Idx → EReal :=
  fun i => prob (argX m c) (argWh m c) (argBh m c) (argWo m c) (argBo m c) (ix2 (rowOf i) 0)

/-! ## The host reshapes before the region -/

/-- The hidden bias as the region finds it: the argument reshaped to one row. -/
theorem V_bias_row (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

/-- The output bias as the region finds it: the argument reshaped to `[1, 1]`. -/
theorem V_bias_one (c : Dev nD) :
    (V m c main_v1 : S1x1.Idx → EReal) = shapeCast S1x1 (m ((c : Thread nD τ).loc main_arg4)) shapeCasts_S1_S1x1 := by
  show StableHlo.after hostOps0 (fun b => m (c, b)) (Proc.devRef .tc main_v1) = _
  after_results
  rfl

/-! ## Each window's block at a point, read at an entry -/

/-- The printed index maps over the grid: the batch rows and the output move with the point, the rest stay. -/
theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 16 := lt_of_lt_of_eq t.isLt N_0

/-- Row `q` of the batch block at point `t` is batch row 1024·t + q. -/
theorem read_x (c : Dev nD) (t : Fin cfg0.N) (q : Fin 1024) (d : Fin 2176) (ht : t.val * 1024 + q.val < 16384) :
    iblk m c 0 t (ix2 q d) = argX m c (ix2 ⟨t.val * 1024 + q.val, ht⟩ d) := by
  obtain ⟨e00, e01, -⟩ := idx_facts t
  show V m c main_arg0 (((cfg0.win 0).blk t).view.emb (ix2 q d)) = _
  refine (congrFun (V_main_arg0 m c) _).trans ?_
  refine congrArg _ (funext fun a => Fin.ext ?_)
  match a with
  | ⟨0, _⟩ => show win0_0.index t (0 : Fin 2) * 1024 + 1 * q.val = t.val * 1024 + q.val; omega
  | ⟨1, _⟩ => show win0_0.index t (1 : Fin 2) * 2176 + 1 * d.val = d.val; omega

/-- The hidden weights' block is the whole array. -/
theorem read_wh (c : Dev nD) (t : Fin cfg0.N) (d : Fin 2176) (j : Fin 64) :
    iblk m c 1 t (ix2 d j) = argWh m c (ix2 d j) := by
  obtain ⟨-, -, e10, e11, -⟩ := idx_facts t
  show V m c main_arg1 (((cfg0.win 1).blk t).view.emb (ix2 d j)) = _
  refine (congrFun (V_main_arg1 m c) _).trans ?_
  refine congrArg _ (funext fun a => Fin.ext ?_)
  match a with
  | ⟨0, _⟩ => show win0_1.index t (0 : Fin 2) * 2176 + 1 * d.val = d.val; omega
  | ⟨1, _⟩ => show win0_1.index t (1 : Fin 2) * 64 + 1 * j.val = j.val; omega

/-- The output weights' block is the whole array. -/
theorem read_wo (c : Dev nD) (t : Fin cfg0.N) (j : Fin 64) :
    iblk m c 3 t (ix2 j 0) = argWo m c (ix2 j 0) := by
  obtain ⟨-, -, -, -, -, -, e30, e31, -⟩ := idx_facts t
  show V m c main_arg3 (((cfg0.win 3).blk t).view.emb (ix2 j 0)) = _
  refine (congrFun (V_main_arg3 m c) _).trans ?_
  refine congrArg _ (funext fun a => Fin.ext ?_)
  match a with
  | ⟨0, _⟩ => show win0_3.index t (0 : Fin 2) * 64 + 1 * j.val = j.val; omega
  | ⟨1, _⟩ => show win0_3.index t (1 : Fin 2) * 1 + 1 * 0 = 0; omega

/-- The bias row's block is the whole row, and entry `(0, j)` of the row is entry `j` of the argument. -/
theorem read_bh (c : Dev nD) (t : Fin cfg0.N) (j : Fin 64) :
    iblk m c 2 t (ix2 0 j) = argBh m c (ix1 j) := by
  obtain ⟨-, -, -, -, e20, e21, -⟩ := idx_facts t
  show V m c main_v0 (((cfg0.win 2).blk t).view.emb (ix2 0 j)) = _
  have e : ((cfg0.win 2).blk t).view.emb (ix2 0 j) = (ix2 0 j : S1x64.Idx) := funext fun a => Fin.ext (by
    match a with
    | ⟨0, _⟩ => show win0_2.index t (0 : Fin 2) * 1 + 1 * 0 = 0; omega
    | ⟨1, _⟩ => show win0_2.index t (1 : Fin 2) * 64 + 1 * j.val = j.val; omega)
  rw [e]
  refine (congrFun (V_bias_row m c) _).trans ?_
  refine shapeCast_apply _ shapeCasts_S64_S1x64 (ix2 0 j) (ix1 j) ?_
  rw [Shape.rowMajor_val_one, Shape.rowMajor_val_two]
  show j.val = 0 * 64 + j.val
  omega

/-- The `[1, 1]` bias block is the whole array, and its one entry is the argument's one entry. -/
theorem read_bo (c : Dev nD) (t : Fin cfg0.N) :
    iblk m c 4 t (ix2 0 0) = argBo m c (ix1 0) := by
  obtain ⟨-, -, -, -, -, -, -, -, e40, e41, -⟩ := idx_facts t
  show V m c main_v1 (((cfg0.win 4).blk t).view.emb (ix2 0 0)) = _
  have e : ((cfg0.win 4).blk t).view.emb (ix2 0 0) = (ix2 0 0 : S1x1.Idx) := funext fun a => Fin.ext (by
    match a with
    | ⟨0, _⟩ => show win0_4.index t (0 : Fin 2) * 1 + 1 * 0 = 0; omega
    | ⟨1, _⟩ => show win0_4.index t (1 : Fin 2) * 1 + 1 * 0 = 0; omega)
  rw [e]
  refine (congrFun (V_bias_one m c) _).trans ?_
  refine shapeCast_apply _ shapeCasts_S1_S1x1 (ix2 0 0) (ix1 0) ?_
  rw [Shape.rowMajor_val_one, Shape.rowMajor_val_two]
  rfl

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The stored value at any entry of the `[1, 1, 1024]` block: its two leading coordinates are zero. -/
theorem pay_at (o : Vec Ideal S64x1 .f32) (w : Vec Ideal S2176x64 .f32) (b : Vec Ideal S1x64 .f32) (o' : Vec Ideal S64x1 .f32)
    (x : Vec Ideal S1024x2176 .f32) (c : Vec Ideal S1x1 .f32) (j : S1x1x1024.Idx) :
    k0_pay1 (F := Ideal) o w b o' x c j
      = Ideal.logistic ((∑ d : Fin 2176, (∑ k : Fin 64, o (ix2 k 0) * w (ix2 d k)) * x (ix2 (j 2) d))
          + ((∑ k : Fin 64, b (ix2 0 k) * o' (ix2 k 0)) + c (ix2 0 0))) := by
  obtain ⟨a, b', q, rfl⟩ : ∃ (a : Fin 1) (b' : Fin 1) (q : Fin 1024), j = ix3 a b' q := ⟨j 0, j 1, j 2, eq_ix3 j⟩
  obtain rfl : a = 0 := Subsingleton.elim _ _
  obtain rfl : b' = 0 := Subsingleton.elim _ _
  exact pay_apply o w b o' x c q

/-- WHAT POINT `t` WRITES BACK is block `t` of the blocked result. -/
theorem flushed_eq (c : Dev nD) (t : Fin cfg0.N) :
    (dats m 0 c).flushed 5 t = ((cfg0.win 5).blk t).view.read (Elt Ideal) (lanes m c) := by
  show (cfg0.win 5).cut (grid0.coords t) ((dats m 0 c).after 5 t) = _
  rw [after0_5]
  unfold out0_5
  rw [View.canon_unit_zero hz3]
  simp only [View.ld_unit_zero (S := S64x1) hz2, View.ld_unit_zero (S := S2176x64) hz2, View.ld_unit_zero (S := S1x64) hz2,
    View.ld_unit_zero (S := S1024x2176) hz2, View.ld_unit_zero (S := S1x1) hz2]
  obtain ⟨-, -, -, -, -, -, -, -, -, -, e50, e51, e52⟩ := idx_facts t
  have ht := point_lt t
  funext j
  have hj0 : (j 0).val < 1 := (j 0).isLt
  have hj2 : (j 2).val < 1024 := (j 2).isLt
  show k0_pay1 (F := Ideal) (iblk m c 3 t) (iblk m c 1 t) (iblk m c 2 t) (iblk m c 3 t) (iblk m c 0 t) (iblk m c 4 t) j
    = lanes m c (((cfg0.win 5).blk t).view.emb j)
  refine (pay_at (iblk m c 3 t) (iblk m c 1 t) (iblk m c 2 t) (iblk m c 3 t) (iblk m c 0 t) (iblk m c 4 t) j).trans ?_
  -- the batch row of the entry this lane lands on
  have hrow : rowOf (((cfg0.win 5).blk t).view.emb j) = ⟨t.val * 1024 + (j 2).val, by omega⟩ := Fin.ext (by
    show (win0_5.index t (0 : Fin 3) * 1 + 1 * (j 0).val) * 1024 + (win0_5.index t (2 : Fin 3) * 1024 + 1 * (j 2).val) = t.val * 1024 + (j 2).val
    omega)
  unfold lanes prob preact
  rw [hrow]
  simp only [read_wo, read_wh, read_bh, read_bo, read_x m c t (j 2) _ (by omega)]

/-! ## The array after the run -/

/-- An index of the array is in point `t`'s block iff each coordinate is in the block's range on its axis. -/
theorem mem_blk (t : Fin cfg0.N) (i : S16x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v2).slice (win0_5.rect t)).set ↔ _
  rw [View.set_slice_whole, Rect.mem_set_unit]
  exact Iff.rfl

/-- Every entry `(t, 0, q)` is in point `t`'s block, and every point writes back. -/
theorem covered (i : S16x1x1024.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 1024 := (i 2).isLt
  have hlt : (i 0).val < cfg0.N := lt_of_lt_of_eq h0 N_0.symm
  refine ⟨⟨(i 0).val, hlt⟩, flush0_5 _, ?_⟩
  obtain ⟨-, -, -, -, -, -, -, -, -, -, e50', e51, e52⟩ := idx_facts ⟨(i 0).val, hlt⟩
  have e50 : win0_5.index ⟨(i 0).val, hlt⟩ (0 : Fin 3) = (i 0).val := e50'
  rw [mem_blk]
  intro a
  match a with
  | ⟨0, _⟩ => show win0_5.index _ (0 : Fin 3) * 1 ≤ (i 0).val ∧ (i 0).val < win0_5.index _ (0 : Fin 3) * 1 + 1; rw [e50]; omega
  | ⟨1, _⟩ => show win0_5.index _ (1 : Fin 3) * 1 ≤ (i 1).val ∧ (i 1).val < win0_5.index _ (1 : Fin 3) * 1 + 1; rw [e51]; omega
  | ⟨2, _⟩ => show win0_5.index _ (2 : Fin 3) * 1024 ≤ (i 2).val ∧ (i 2).val < win0_5.index _ (2 : Fin 3) * 1024 + 1024; rw [e52]; omega

/-- THE ARRAY after the run is the blocked result. -/
theorem final (c : Dev nD) : (dats m 0 c).arrAt 5 cfg0.N = lanes m c :=
  (dats m 0 c).arrAt_eq_of_cover 5 (lanes m c) (fun t _ => flushed_eq m c t) covered

/-! ## The reshape after the region -/

/-- Entry `(r, 0)` of the result reads the blocked array at `(r / 1024, 0, r % 1024)`: batch row `r`. -/
theorem result_eq (c : Dev nD) :
    Pipeline.afterTail₀ cfgs (dats m) 0 (V0 m) [hostOps1] c main_v3
      = prob (argX m c) (argWh m c) (argBh m c) (argWo m c) (argBo m c) := by
  unfold Pipeline.afterTail₀
  show StableHlo.after hostOps1 _ (Proc.devRef .tc main_v3) = _
  after_results
  funext i
  obtain ⟨r, z, rfl⟩ : ∃ (r : Fin 16384) (z : Fin 1), i = ix2 r z := ⟨i 0, i 1, eq_ix2 i⟩
  obtain rfl : z = 0 := Subsingleton.elim _ _
  have hr := r.isLt
  have hw : Pipeline.withArrays spec0 c (V0 m c) (fun w => (dats m 0 c).arrAt w cfg0.N) (Proc.devRef .tc main_v2) = lanes m c :=
    (Pipeline.withArrays_arr spec0 launch0.win.arr_inj c _ _ 5).trans (final m c)
  show shapeCast S16384x1 (Pipeline.withArrays spec0 c (V0 m c) (fun w => (dats m 0 c).arrAt w cfg0.N) (Proc.devRef .tc main_v2))
    shapeCasts_S16x1x1024_S16384x1 (ix2 r 0) = _
  rw [hw]
  refine (shapeCast_apply _ shapeCasts_S16x1x1024_S16384x1 (ix2 r 0)
    (ix3 ⟨r.val / 1024, by omega⟩ 0 ⟨r.val % 1024, Nat.mod_lt _ (by decide)⟩) ?_).trans ?_
  · rw [Shape.rowMajor_val_three, Shape.rowMajor_val_two]
    show (r.val / 1024 * 1 + 0) * 1024 + r.val % 1024 = r.val * 1 + 0
    omega
  · unfold lanes
    refine congrArg _ (congrArg (fun x => ix2 x (0 : Fin 1)) (Fin.ext ?_))
    show r.val / 1024 * 1024 + r.val % 1024 = r.val
    omega

/-! ## The run, read -/

/-- Every weakly fair execution of the kernel program ends with the result array at `prob` of the argument arrays
    and the argument arrays unchanged. -/
theorem run : θ_run defs (onTc (τ := τ) (main (F := Ideal))) ⟨m, fun _ => 0, ρ⟩ fun r => ∀ c : Dev nD,
      r.2.mem ((c.tc : Thread nD τ).loc main_v3) = prob (argX m c) (argWh m c) (argBh m c) (argWo m c) (argBo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Arr

end
-- ==== Proof.lean ====
/- A two-layer perceptron head with no nonlinearity between its layers, against its collapsed form.

   The reference computes  sigmoid ((x · W_h + b_h) · W_o + b_o)  for 16384 batch rows `x` of 2176 features, 64 hidden
   units and one output.  The kernel first folds the weights into one row  W_h · W_o  and the biases into one number
   b_h · W_o + b_o,  then computes  sigmoid (x · (W_h · W_o) + (b_h · W_o + b_o))  for 1024 batch rows per grid point,
   writing them as one row of a `[16, 1, 1024]` array that is reshaped to `[16384, 1]` afterwards.

   At the ideal values every product is a finite sum on the extended reals, and the two pre-activations are equal
   by distributivity and an exchange of sums (Proof/Collapse.lean) — which holds when the entries are real numbers:
   this is where the precondition, every input finite, is used (Proof/RealEntries.lean).  The logistic function is
   one function on both sides: the kernel's single operation is, by definition, the reference's  1 / (1 + e^(−y)).
   Proof/RefValue.lean reads the reference's operations into the two-layer form; Proof/KernelPoint.lean reads the
   kernel body's stored value at a lane; Proof/KernelArray.lean carries the sixteen stored rows to the result array
   through the reshape.  The three frames are the generated ones (the reference's is its generated run with the
   result dropped), and nothing was rewritten by the idealization, so `preserves` is trivial. -/
import proofs.«156972_g63591285784749_cont_sun_c4_171_12_alg».proof.Defs
import proofs.«156972_g63591285784749_cont_sun_c4_171_12_alg».proof.Proof.Gen.Kernel
import proofs.«156972_g63591285784749_cont_sun_c4_171_12_alg».proof.Proof.Gen.Kernel.Skeleton
import proofs.«156972_g63591285784749_cont_sun_c4_171_12_alg».proof.Proof.Gen.Kernel.Launch
import proofs.«156972_g63591285784749_cont_sun_c4_171_12_alg».proof.Proof.Gen.Kernel.Points
import proofs.«156972_g63591285784749_cont_sun_c4_171_12_alg».proof.Proof.Gen.Kernel.Frame
import proofs.«156972_g63591285784749_cont_sun_c4_171_12_alg».proof.Proof.Gen.KernelIdeal
import proofs.«156972_g63591285784749_cont_sun_c4_171_12_alg».proof.Proof.Gen.KernelIdeal.Skeleton
import proofs.«156972_g63591285784749_cont_sun_c4_171_12_alg».proof.Proof.Gen.KernelIdeal.Launch
import proofs.«156972_g63591285784749_cont_sun_c4_171_12_alg».proof.Proof.Gen.KernelIdeal.Points
import proofs.«156972_g63591285784749_cont_sun_c4_171_12_alg».proof.Proof.Gen.KernelIdeal.Frame
import proofs.«156972_g63591285784749_cont_sun_c4_171_12_alg».proof.Proof.Gen.ReferenceIdeal
import proofs.«156972_g63591285784749_cont_sun_c4_171_12_alg».proof.Proof.Gen.ReferenceIdeal.Run
import proofs.«156972_g63591285784749_cont_sun_c4_171_12_alg».proof.Proof.Gen.ReferenceIdeal.Read
import proofs.«156972_g63591285784749_cont_sun_c4_171_12_alg».proof.Proof.Gen.Pre_finite_inputs
import proofs.«156972_g63591285784749_cont_sun_c4_171_12_alg».proof.Proof.Collapse
import proofs.«156972_g63591285784749_cont_sun_c4_171_12_alg».proof.Proof.RealEntries
import proofs.«156972_g63591285784749_cont_sun_c4_171_12_alg».proof.Proof.RefValue
import proofs.«156972_g63591285784749_cont_sun_c4_171_12_alg».proof.Proof.KernelPoint
import proofs.«156972_g63591285784749_cont_sun_c4_171_12_alg».proof.Proof.KernelArray
import Idealize.ShloMosaic.Adequacy
import Idealize.ShloMosaic.Init

noncomputable section

namespace Cert.Proof

open Idealize.ShloMosaic Idealize.SL.Sem Cert.Collapse

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `prob` of the argument arrays: the kernel by its blocks and the
    reshape, the reference by its operations read one at a time and the collapse law, which the precondition
    licenses by making every entry a real number. -/
theorem algebraic : Cert.algebraic_KernelIdeal_ReferenceIdeal := by
  intro m ρ m' ρ' hpre hagree
  refine ⟨fun c => prob (Cert.KernelIdeal.Arr.argX m c) (Cert.KernelIdeal.Arr.argWh m c) (Cert.KernelIdeal.Arr.argBh m c)
    (Cert.KernelIdeal.Arr.argWo m c) (Cert.KernelIdeal.Arr.argBo m c), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hWh, hbh, hWo, hbo⟩ := Cert.Pre_finite_inputs.Decode.reals_of_pre _ _ _ _ _ (hpre c)
  rw [(hagree c).1, (hagree c).2.1, (hagree c).2.2.1, (hagree c).2.2.2.1, (hagree c).2.2.2.2]
  exact (Cert.ReferenceIdeal.Read.val_main_v13_eq _ _ _ _ _).trans
    (Cert.ReferenceIdeal.RefValue.ref_eq _ _ _ _ _ hX hWh hbh hWo hbo)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
